-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1024x512 : Shape := ⟨2, ![1024, 512]⟩
abbrev S1024 : Shape := ⟨1, ![1024]⟩
abbrev S1024x1024 : Shape := ⟨2, ![1024, 1024]⟩
abbrev S512x1024 : Shape := ⟨2, ![512, 1024]⟩
abbrev S1x1024 : Shape := ⟨2, ![1, 1024]⟩

abbrev nBuf : Space → Nat
  | .hbm => 8
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024, .f32⟩
  | .local _ .vmem, ⟨9, _⟩ => ⟨S1024, .f32⟩
  | .local _ .vmem, ⟨10, _⟩ => ⟨S1024, .f32⟩
  | .local _ .vmem, ⟨11, _⟩ => ⟨S1024, .f32⟩
  | .local _ .vmem, ⟨12, _⟩ => ⟨S1024, .f32⟩
  | .local _ .vmem, ⟨13, _⟩ => ⟨S1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v32 : BitVec 1 := Scalar.cmpi .eq arg2 c7_i32
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  transposes_S1024x512_p1_0_S512x1024 : S1024x512.Transposes [1, 0] S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .f32 = 32 ∨ (Rect.block (s := S4096x4096) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S4096.size a
  hwx0_4 : ∀ i : grid0.Coords, EltTy.bits .f32 = 32 ∨ (Rect.block (s := S4096) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S4096.size a
  hwx0_5 : ∀ i : grid0.Coords, EltTy.bits .f32 = 32 ∨ (Rect.block (s := S4096) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S4096.size a
  hwx0_6 : ∀ i : grid0.Coords, EltTy.bits .f32 = 32 ∨ (Rect.block (s := S4096) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x4096.size a
  hwx0_7 : ∀ i : grid0.Coords, EltTy.bits .f32 = 32 ∨ (Rect.block (s := S8192x4096) S1024x1024.size (cc0_transform_7 i) (hinb0_7 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .i1⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .i1⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S8192x4096, .f32⟩
  | .hbm, ⟨40, _⟩ => ⟨S1x4096, .f32⟩
  | .hbm, ⟨41, _⟩ => ⟨S8192x4096, .f32⟩
  | .hbm, ⟨42, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one run of the body leaves behind, as values of the body's three stored terms.

  At the first step of a run over k the accumulator is reset to the zero tile and then receives the step's product;
  at every later step it receives the step's product on top of what the step before left; at the last step the output
  tile is the accumulator, as that step leaves it, plus the bias row. Each store covers its whole buffer, so what a
  buffer holds afterwards is the last value stored, and each load reads a whole buffer.
-/
import proofs.«157632_j36223754174952_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- First step of a run: the accumulator ends at the step's product added onto the zero tile. -/
theorem acc_first (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .f32) (h5 : a5.IsWhole) (a6 : Memref sig .tc .vmem S1024x512 .f32) (h6 : a6.IsWhole) (a7 : Memref sig .tc .vmem S1024 .f32) (h7 : a7.IsWhole) (a8 : Memref sig .tc .vmem S1024 .f32) (h8 : a8.IsWhole) (a9 : Memref sig .tc .vmem S1024 .f32) (h9 : a9.IsWhole) (a10 : Memref sig .tc .vmem S1024x1024 .f32) (h10 : a10.IsWhole) (a11 : Memref sig .tc .vmem S1024x1024 .f32) (h11 : a11.IsWhole) (hc0 : cond0_0 i) (hc1 : ¬cond0_1 i) (x0 x1 x2 x3 : Vec F S1024x512 .f32) (x4 x5 x6 : Vec F S1024 .f32) :
    sout0_A_0 c i a3 h3 a4 h4 a5 h5 a6 h6 a7 h7 a8 h8 a9 h9 a10 h10 a11 h11 hc0 hc1 x0 x1 x2 x3 x4 x5 x6 = k0_pay2 x1 x2 x3 x0 k0_pay1 := by
  unfold sout0_A_0
  rw [View.read_writes_eq_canon _ _ _ (scover0_A_0 c i a3 h3 a4 h4 a5 h5 a6 h6 a7 h7 a8 h8 a9 h9 a10 h10 a11 h11 hc0 hc1 x0 x1 x2 x3 x4 x5 x6)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, h5.read_unread, h6.read_unread,
    View.ld_unit_zero (S := S1024x512) hz2]

/-- A middle step: the accumulator ends at the step's product added onto what it held. -/
theorem acc_middle (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .f32) (h5 : a5.IsWhole) (a6 : Memref sig .tc .vmem S1024x512 .f32) (h6 : a6.IsWhole) (a7 : Memref sig .tc .vmem S1024 .f32) (h7 : a7.IsWhole) (a8 : Memref sig .tc .vmem S1024 .f32) (h8 : a8.IsWhole) (a9 : Memref sig .tc .vmem S1024 .f32) (h9 : a9.IsWhole) (a10 : Memref sig .tc .vmem S1024x1024 .f32) (h10 : a10.IsWhole) (a11 : Memref sig .tc .vmem S1024x1024 .f32) (h11 : a11.IsWhole) (hc0 : ¬cond0_0 i) (hc1 : ¬cond0_1 i) (x0 x1 x2 x3 : Vec F S1024x512 .f32) (x4 x5 x6 : Vec F S1024 .f32) (acc : Vec F S1024x1024 .f32) :
    sout0_B_0 c i a3 h3 a4 h4 a5 h5 a6 h6 a7 h7 a8 h8 a9 h9 a10 h10 a11 h11 hc0 hc1 x0 x1 x2 x3 x4 x5 x6 acc = k0_pay2 x1 x2 x3 x0 acc := by
  unfold sout0_B_0
  rw [View.read_writes_eq_canon _ _ _ (scover0_B_0 c i a3 h3 a4 h4 a5 h5 a6 h6 a7 h7 a8 h8 a9 h9 a10 h10 a11 h11 hc0 hc1 x0 x1 x2 x3 x4 x5 x6 acc)]
  unfold kernelRun0_B
  dsimp only
  sl_unfold_words
  rw [View.canon_unit_zero hz2]
  simp only [View.readAt_eq_ld, h3.read_unread, h4.read_unread, h5.read_unread, h6.read_unread, h11.read_unread,
    View.ld_unit_zero (S := S1024x512) hz2, View.ld_unit_zero (S := S1024x1024) hz2]

/-- The last step: the accumulator likewise, … -/
theorem acc_last (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .f32) (h5 : a5.IsWhole) (a6 : Memref sig .tc .vmem S1024x512 .f32) (h6 : a6.IsWhole) (a7 : Memref sig .tc .vmem S1024 .f32) (h7 : a7.IsWhole) (a8 : Memref sig .tc .vmem S1024 .f32) (h8 : a8.IsWhole) (a9 : Memref sig .tc .vmem S1024 .f32) (h9 : a9.IsWhole) (a10 : Memref sig .tc .vmem S1024x1024 .f32) (h10 : a10.IsWhole) (a11 : Memref sig .tc .vmem S1024x1024 .f32) (h11 : a11.IsWhole) (hc0 : ¬cond0_0 i) (hc1 : cond0_1 i) (x0 x1 x2 x3 : Vec F S1024x512 .f32) (x4 x5 x6 : Vec F S1024 .f32) (acc : Vec F S1024x1024 .f32) :
    sout0_C_0 c i a3 h3 a4 h4 a5 h5 a6 h6 a7 h7 a8 h8 a9 h9 a10 h10 a11 h11 hc0 hc1 x0 x1 x2 x3 x4 x5 x6 acc = k0_pay2 x1 x2 x3 x0 acc := by
  unfold sout0_C_0
  rw [View.read_writes_eq_canon _ _ _ (scover0_C_0 c i a3 h3 a4 h4 a5 h5 a6 h6 a7 h7 a8 h8 a9 h9 a10 h10 a11 h11 hc0 hc1 x0 x1 x2 x3 x4 x5 x6 acc)]
  unfold kernelRun0_C
  dsimp only
  sl_unfold_words
  rw [View.canon_unit_zero hz2]
  simp only [View.readAt_eq_ld, h3.read_unread, h4.read_unread, h5.read_unread, h6.read_unread, h11.read_unread,
    View.ld_unit_zero (S := S1024x512) hz2, View.ld_unit_zero (S := S1024x1024) hz2]

/-- … and the output tile is that accumulator plus the bias row. -/
theorem out_last (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .f32) (h5 : a5.IsWhole) (a6 : Memref sig .tc .vmem S1024x512 .f32) (h6 : a6.IsWhole) (a7 : Memref sig .tc .vmem S1024 .f32) (h7 : a7.IsWhole) (a8 : Memref sig .tc .vmem S1024 .f32) (h8 : a8.IsWhole) (a9 : Memref sig .tc .vmem S1024 .f32) (h9 : a9.IsWhole) (a10 : Memref sig .tc .vmem S1024x1024 .f32) (h10 : a10.IsWhole) (a11 : Memref sig .tc .vmem S1024x1024 .f32) (h11 : a11.IsWhole) (hc0 : ¬cond0_0 i) (hc1 : cond0_1 i) (x0 x1 x2 x3 : Vec F S1024x512 .f32) (x4 x5 x6 : Vec F S1024 .f32) (acc : Vec F S1024x1024 .f32) :
    out0_C_7 c i a3 h3 a4 h4 a5 h5 a6 h6 a7 h7 a8 h8 a9 h9 a10 h10 a11 h11 hc0 hc1 x0 x1 x2 x3 x4 x5 x6 acc = k0_pay3 x4 x5 x6 (k0_pay2 x1 x2 x3 x0 acc) := by
  unfold out0_C_7
  rw [View.read_writes_eq_canon _ _ _ (cover0_C_7 c i a3 h3 a4 h4 a5 h5 a6 h6 a7 h7 a8 h8 a9 h9 a10 h10 a11 h11 hc0 hc1 x0 x1 x2 x3 x4 x5 x6 acc)]
  unfold kernelRun0_C
  dsimp only
  sl_unfold_words
  rw [View.canon_unit_zero hz2]
  simp only [View.readCov_unit_zero (S := S1024x1024) _ hz2, View.readAt_eq_ld, h3.read_unread, h4.read_unread, h5.read_unread,
    h6.read_unread, h7.read_unread, h8.read_unread, h9.read_unread, h11.read_unread, View.ld_unit_zero (S := S1024x512) hz2,
    View.ld_unit_zero (S := S1024x1024) hz2, View.ld_unit_zero (S := S1024) hz1]

end Cert.KernelIdeal.Pieces

end
-- ==== Proof.Spec.lean ====
/-
  The function both programs compute, on the extended reals, and the two laws of sums that join their spellings.

  A Bayesian linear layer samples its weight as  w[o, k] = mu[o, k] + softplus(rho[o, k]) * eps[o, k]  and its bias as
  b[o] = bmu[o] + softplus(brho[o]) * beps[o],  and returns  y[r, o] = (sum over k of x[r, k] * w[o, k]) + b[o].
  Here softplus(t) = max(t, 0) + log(1 + exp(-|t|)), the overflow-free spelling of log(1 + exp t).

  One side forms the sum over k whole; the other cuts the 4096 values of k into 8 consecutive stretches of 512, sums
  each stretch, and adds the stretch sums in order onto zero. Addition of extended reals is commutative and
  associative (also at the infinities), so the two agree: no finiteness is needed anywhere.
-/
import Idealize.ShloMosaic.PureOps.Ideal.Laws
import Idealize.ShloMosaic.Lib.ValueIdx

noncomputable section

open scoped BigOperators

namespace Cert.SampledLinear

open Idealize.ShloMosaic Idealize.ShloMosaic.ValueIdx

/-- softplus on the extended reals: max(t, 0) + log(1 + exp(-|t|)), with |t| = max(t, -t). -/
def softplus (t : EReal) : EReal := max t 0 + Ideal.log1p (Ideal.exp (-(max t (-t))))

/-- No extended real differs from itself, whether the comparison is spelt "ordered and unequal" … -/
theorem cmp_one_self (t : EReal) : Ideal.cmp .one t t = 0#1 := by simp [Ideal.cmp]
/-- … or "unordered or unequal". -/
theorem cmp_une_self (t : EReal) : Ideal.cmp .une t t = 0#1 := by simp [Ideal.cmp]

/-- softplus as the vector unit spells it: the guard "t - 0 differs from itself" never fires, t - 0 is t, and
    0 - |t| is -|t|. -/
theorem softplus_of_zero_sub (t : EReal) :
    Scalar.select (Ideal.cmp .one (t - 0) (t - 0)) (t + 0)
      (max t 0 + Ideal.log1p (Ideal.exp (0 - max (t - 0) (-(t - 0))))) = softplus t := by
  rw [cmp_one_self, select_zero, sub_zero, zero_sub]
  rfl

/-- softplus as the host spells it: the same with the negation written as a negation. -/
theorem softplus_of_neg (t : EReal) :
    Scalar.select (Ideal.cmp .une (t - 0) (t - 0)) (t + 0)
      (max t 0 + Ideal.log1p (Ideal.exp (-(max (t - 0) (-(t - 0)))))) = softplus t := by
  rw [cmp_une_self, select_zero, sub_zero]
  rfl

/-! ## The layer -/

/-- One sampled weight: mu + softplus(rho) * eps at one entry. -/
def weightAt (mu rho eps : (⟨2, ![4096, 4096]⟩ : Shape).Idx → EReal) (j : (⟨2, ![4096, 4096]⟩ : Shape).Idx) : EReal :=
  mu j + softplus (rho j) * eps j

/-- One sampled bias: bmu + softplus(brho) * beps at one entry. -/
def biasAt (bmu brho beps : (⟨1, ![4096]⟩ : Shape).Idx → EReal) (j : (⟨1, ![4096]⟩ : Shape).Idx) : EReal :=
  bmu j + softplus (brho j) * beps j

/-- The layer's output: y[r, o] = (sum over k of x[r, k] * w[o, k]) + b[o]. -/
def layer (x : (⟨2, ![8192, 4096]⟩ : Shape).Idx → EReal) (mu rho eps : (⟨2, ![4096, 4096]⟩ : Shape).Idx → EReal)
    (bmu brho beps : (⟨1, ![4096]⟩ : Shape).Idx → EReal) : (⟨2, ![8192, 4096]⟩ : Shape).Idx → EReal := fun i =>
  (∑ k : Fin 4096, x (ix2 ⟨(i 0).val, idx2_lt0 i⟩ k) * weightAt mu rho eps (ix2 ⟨(i 1).val, idx2_lt1 i⟩ k))
    + biasAt bmu brho beps (ix1 ⟨(i 1).val, idx2_lt1 i⟩)

/-! ## A sum over J·K consecutive naturals, stretch by stretch -/

/-- The sum of f over the first J·K naturals is the sum, over the J stretches of length K, of each stretch's sum. -/
theorem sum_range_stretches {β : Type*} [AddCommMonoid β] (K : ℕ) (f : ℕ → β) :
    ∀ J : ℕ, ∑ n ∈ Finset.range (J * K), f n = ∑ s ∈ Finset.range J, ∑ k ∈ Finset.range K, f (K * s + k)
  | 0 => by rw [Nat.zero_mul, Finset.range_zero, Finset.sum_empty, Finset.sum_empty]
  | J + 1 => by
    rw [Nat.succ_mul, Finset.sum_range_add, sum_range_stretches K f J, Finset.sum_range_succ, Nat.mul_comm J K]

/-- The same with the whole sum and each stretch's sum taken over Fin. -/
theorem sum_fin_stretches {β : Type*} [AddCommMonoid β] (J K : ℕ) (f : ℕ → β) :
    ∑ n : Fin (J * K), f n.val = ∑ s ∈ Finset.range J, ∑ k : Fin K, f (K * s + k.val) := by
  rw [Fin.sum_univ_eq_sum_range f (J * K), sum_range_stretches K f J]
  exact Finset.sum_congr rfl fun s _ => (Fin.sum_univ_eq_sum_range (fun k => f (K * s + k)) K).symm

/-- One term of the layer's sum over k, as a function of a natural (zero past the array's end, where it is never read). -/
def term (x : (⟨2, ![8192, 4096]⟩ : Shape).Idx → EReal) (mu rho eps : (⟨2, ![4096, 4096]⟩ : Shape).Idx → EReal)
    (r : Fin 8192) (o : Fin 4096) (n : ℕ) : EReal :=
  if h : n < 4096 then x (ix2 r ⟨n, h⟩) * weightAt mu rho eps (ix2 o ⟨n, h⟩) else 0

/-- The layer's sum over the 4096 values of k is the sum of its 8 consecutive stretches of 512. -/
theorem sum_terms (x : (⟨2, ![8192, 4096]⟩ : Shape).Idx → EReal) (mu rho eps : (⟨2, ![4096, 4096]⟩ : Shape).Idx → EReal)
    (r : Fin 8192) (o : Fin 4096) :
    ∑ k : Fin 4096, x (ix2 r k) * weightAt mu rho eps (ix2 o k)
      = ∑ s ∈ Finset.range 8, ∑ k : Fin 512, term x mu rho eps r o (512 * s + k.val) := by
  refine Eq.trans (Finset.sum_congr rfl fun k _ => ?_) (sum_fin_stretches 8 512 (term x mu rho eps r o))
  unfold term
  rw [dif_pos k.isLt]

end Cert.SampledLinear

end
-- ==== Proof.LibPlainDot.lean ====
/-
  A PLAIN MATRIX PRODUCT READ AT AN INDEX (general lemmas; they mention no program).

  Take dimension numbers of a product [M, K] × [K, N] → [M, N] that contract the left operand's axis 1 with the
  right operand's axis 0, keep the left axis 0 and the right axis 1, and have no batch axes. The contraction index
  set then has one axis of extent K, so it is Fin K; the left operand's index at result index (i, j) and contraction
  position k is (i, k) and the right operand's is (k, j). Hence on the extended reals both the accumulate-into-zero
  product of the vector unit and the host's dot product are, at (i, j), the finite sum over k of l (i, k) · r (k, j).
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of a plain product: contract left axis 1 with right axis 0, keep left axis 0
    and right axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

/-- The host's dot product, at an index. -/
theorem dotGeneral_apply (h : Plain d) {φ₁ φ₂ : FTy} (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (sum_eq h l r j)

end Cert.Lib.PlainDot

end
-- ==== Proof.Payloads.lean ====
/-
  The three values the kernel's body stores, read at one entry, on the extended reals.

  The reset stores zero. The accumulation step stores  acc + x_tile · w_tileᵀ,  where the weight tile is sampled in
  place,  w_tile[q, k] = mu[q, k] + softplus(rho[q, k]) * eps[q, k];  at entry (p, q) that is
  acc[p, q] + sum over k < 512 of x[p, k] * w_tile[q, k]  (rounding to bf16 is the identity on extended reals, the
  transpose swaps the two coordinates, and the product into a zero accumulator is the plain sum). The last step
  stores  acc + bias_row,  the sampled bias  bmu[q] + softplus(brho[q]) * beps[q]  broadcast down the rows.
-/
import proofs.«157632_j36223754174952_1_alg».proof.Proof.Gen.KernelIdeal.Skeleton
import proofs.«157632_j36223754174952_1_alg».proof.Proof.Spec
import proofs.«157632_j36223754174952_1_alg».proof.Proof.LibPlainDot
import Idealize.ShloMosaic.Lib.ValueLayout
import Idealize.ShloMosaic.Lib.Pipeline.Value

noncomputable section

open scoped BigOperators

namespace Cert.KernelIdeal.Payloads

open Cert.KernelIdeal Cert.KernelIdeal.Gen Idealize.ShloMosaic Idealize.ShloMosaic.ValueIdx Cert.SampledLinear

/-- One entry of the sampled weight tile. -/
def wtile (mu rho eps : Vec Ideal S1024x512 .f32) (q : Fin 1024) (k : Fin 512) : EReal :=
  mu (ix2 q k) + softplus (rho (ix2 q k)) * eps (ix2 q k)

/-- One entry of the sampled bias tile. -/
def btile (bmu brho beps : Vec Ideal S1024 .f32) (q : Fin 1024) : EReal :=
  bmu (ix1 q) + softplus (brho (ix1 q)) * beps (ix1 q)

/-- The reset value is zero everywhere. -/
theorem reset_apply (y : S1024x1024.Idx) : (k0_pay1 (F := Ideal)) y = 0 := by
  unfold k0_pay1
  rw [shapeCast_self]
  exact Ideal.ofBits_zero_f32

/-- The dimension numbers of the body's product are the plain ones. -/
theorem plain : Cert.Lib.PlainDot.Plain dot_S1024x512_S512x1024_S1024x1024_1_0_0_1_n_n := ⟨rfl, rfl, rfl, rfl, rfl, rfl⟩

/-- The accumulation step at entry (p, q). -/
theorem step_apply (mu rho eps x : Vec Ideal S1024x512 .f32) (acc : Vec Ideal S1024x1024 .f32) (p q : Fin 1024) :
    k0_pay2 mu rho eps x acc (ix2 p q) = acc (ix2 p q) + ∑ k : Fin 512, x (ix2 p k) * wtile mu rho eps q k := by
  unfold k0_pay2
  rw [shapeCast_self]
  refine congrArg (acc (ix2 p q) + ·) ?_
  refine (Cert.Lib.PlainDot.matmul_zero_apply plain none _ _ (ix2 p q)).trans ?_
  refine Finset.sum_congr rfl fun k _ => ?_
  refine congrArg (x (ix2 p k) * ·) ?_
  refine (transpose_ix2_apply _ transposes_S1024x512_p1_0_S512x1024 k q).trans ?_
  show mu (ix2 q k) + Scalar.select (Ideal.cmp .one (rho (ix2 q k) - Ideal.ofBits .f32 0x00000000#32) (rho (ix2 q k) - Ideal.ofBits .f32 0x00000000#32))
      (rho (ix2 q k) + Ideal.ofBits .f32 0x00000000#32)
      (max (rho (ix2 q k)) (Ideal.ofBits .f32 0x00000000#32) + Ideal.log1p (Ideal.exp (Ideal.ofBits .f32 0x00000000#32 - max (rho (ix2 q k) - Ideal.ofBits .f32 0x00000000#32) (-(rho (ix2 q k) - Ideal.ofBits .f32 0x00000000#32))))) * eps (ix2 q k) = _
  rw [Ideal.ofBits_zero_f32, softplus_of_zero_sub]
  rfl

/-- The last step at entry (p, q). -/
theorem last_apply (bmu brho beps : Vec Ideal S1024 .f32) (acc : Vec Ideal S1024x1024 .f32) (p q : Fin 1024) :
    k0_pay3 bmu brho beps acc (ix2 p q) = acc (ix2 p q) + btile bmu brho beps q := by
  unfold k0_pay3
  refine congrArg (acc (ix2 p q) + ·) ?_
  refine (broadcastTo_1b_ab_apply _ broadcasts_S1x1024_S1024x1024 p q).trans ?_
  refine (shapeCast_a_1a_apply _ shapeCasts_S1024_S1x1024 (0 : Fin 1) q).trans ?_
  show bmu (ix1 q) + Scalar.select (Ideal.cmp .one (brho (ix1 q) - Ideal.ofBits .f32 0x00000000#32) (brho (ix1 q) - Ideal.ofBits .f32 0x00000000#32))
      (brho (ix1 q) + Ideal.ofBits .f32 0x00000000#32)
      (max (brho (ix1 q)) (Ideal.ofBits .f32 0x00000000#32) + Ideal.log1p (Ideal.exp (Ideal.ofBits .f32 0x00000000#32 - max (brho (ix1 q) - Ideal.ofBits .f32 0x00000000#32) (-(brho (ix1 q) - Ideal.ofBits .f32 0x00000000#32))))) * beps (ix1 q) = _
  rw [Ideal.ofBits_zero_f32, softplus_of_zero_sub]
  rfl

end Cert.KernelIdeal.Payloads

end
-- ==== Proof.Blocks.lean ====
/-
  Where each tile sits in its array.

  The grid is 8 x 4 x 8: point t has row-tile coordinate t / 32, column-tile coordinate (t / 8) % 4 and reduction
  coordinate t % 8. The x tile of point t is rows 1024 (t / 32) + p, columns 512 (t % 8) + k of x; the three weight tiles
  are rows 1024 ((t / 8) % 4) + q, columns 512 (t % 8) + k of their arrays; the three bias tiles are entries
  1024 ((t / 8) % 4) + q of their vectors.
-/
import proofs.«157632_j36223754174952_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The block indices of the eight windows, as functions of the point's number: decided over the 256 points. -/
theorem index_facts : ∀ t : Fin cfg0.N,
    (win0_0.index t 0 = t.val / 32 ∧ win0_0.index t 1 = t.val % 8)
    ∧ (win0_1.index t 0 = t.val / 8 % 4 ∧ win0_1.index t 1 = t.val % 8)
    ∧ (win0_2.index t 0 = t.val / 8 % 4 ∧ win0_2.index t 1 = t.val % 8)
    ∧ (win0_3.index t 0 = t.val / 8 % 4 ∧ win0_3.index t 1 = t.val % 8)
    ∧ win0_4.index t 0 = t.val / 8 % 4
    ∧ win0_5.index t 0 = t.val / 8 % 4
    ∧ win0_6.index t 0 = t.val / 8 % 4
    ∧ (win0_7.index t 0 = t.val / 32 ∧ win0_7.index t 1 = t.val / 8 % 4) :=
  (by decide +kernel : ∀ t : Fin grid0.N,
    (win0_0.index t 0 = t.val / 32 ∧ win0_0.index t 1 = t.val % 8)
    ∧ (win0_1.index t 0 = t.val / 8 % 4 ∧ win0_1.index t 1 = t.val % 8)
    ∧ (win0_2.index t 0 = t.val / 8 % 4 ∧ win0_2.index t 1 = t.val % 8)
    ∧ (win0_3.index t 0 = t.val / 8 % 4 ∧ win0_3.index t 1 = t.val % 8)
    ∧ win0_4.index t 0 = t.val / 8 % 4
    ∧ win0_5.index t 0 = t.val / 8 % 4
    ∧ win0_6.index t 0 = t.val / 8 % 4
    ∧ (win0_7.index t 0 = t.val / 32 ∧ win0_7.index t 1 = t.val / 8 % 4))

/-- The tiles of a point, each at its literal type. -/
abbrev xB (c : Dev nD) (t : Fin cfg0.N) : Vec F S1024x512 .f32 := iblk m c 0 t
abbrev muB (c : Dev nD) (t : Fin cfg0.N) : Vec F S1024x512 .f32 := iblk m c 1 t
abbrev rhoB (c : Dev nD) (t : Fin cfg0.N) : Vec F S1024x512 .f32 := iblk m c 2 t
abbrev epsB (c : Dev nD) (t : Fin cfg0.N) : Vec F S1024x512 .f32 := iblk m c 3 t
abbrev bmuB (c : Dev nD) (t : Fin cfg0.N) : Vec F S1024 .f32 := iblk m c 4 t
abbrev brhoB (c : Dev nD) (t : Fin cfg0.N) : Vec F S1024 .f32 := iblk m c 5 t
abbrev bepsB (c : Dev nD) (t : Fin cfg0.N) : Vec F S1024 .f32 := iblk m c 6 t

/-- The arrays, each at its literal type. -/
abbrev xA (c : Dev nD) : Vec F S8192x4096 .f32 := m ((c : Thread nD τ).loc main_arg0)
abbrev muA (c : Dev nD) : Vec F S4096x4096 .f32 := m ((c : Thread nD τ).loc main_arg1)
abbrev rhoA (c : Dev nD) : Vec F S4096x4096 .f32 := m ((c : Thread nD τ).loc main_arg2)
abbrev bmuA (c : Dev nD) : Vec F S4096 .f32 := m ((c : Thread nD τ).loc main_arg3)
abbrev brhoA (c : Dev nD) : Vec F S4096 .f32 := m ((c : Thread nD τ).loc main_arg4)
abbrev epsA (c : Dev nD) : Vec F S4096x4096 .f32 := m ((c : Thread nD τ).loc main_arg5)
abbrev bepsA (c : Dev nD) : Vec F S4096 .f32 := m ((c : Thread nD τ).loc main_arg6)

/-- Entry (p, k) of the x tile of point t is x at row 1024 (t / 32) + p, column 512 (t % 8) + k. -/
theorem xB_apply (c : Dev nD) (t : Fin cfg0.N) (p : Fin 1024) (k : Fin 512) (i : S8192x4096.Idx)
    (h0 : (i 0).val = 1024 * (t.val / 32) + p.val) (h1 : (i 1).val = 512 * (t.val % 8) + k.val) :
    xB m c t (ix2 p k) = xA m c i := by
  have hi := (index_facts t).1
  unfold xB iblk
  rw [View.read_apply]
  show V m c main_arg0 _ = m (c.tc.loc main_arg0) _
  unfold V
  congr 1
  funext a
  apply Fin.ext
  match a with
  | ⟨0, _⟩ => show win0_0.index t 0 * 1024 + 1 * p.val = (i 0).val; rw [hi.1, h0]; omega
  | ⟨1, _⟩ => show win0_0.index t 1 * 512 + 1 * k.val = (i 1).val; rw [hi.2, h1]; omega

/-- Entry (q, k) of the mu tile of point t is row 1024 ((t / 8) % 4) + q, column 512 (t % 8) + k of its array. -/
theorem muB_apply (c : Dev nD) (t : Fin cfg0.N) (q : Fin 1024) (k : Fin 512) (j : S4096x4096.Idx)
    (h0 : (j 0).val = 1024 * (t.val / 8 % 4) + q.val) (h1 : (j 1).val = 512 * (t.val % 8) + k.val) :
    muB m c t (ix2 q k) = muA m c j := by
  have hi := (index_facts t).2.1
  unfold muB iblk
  rw [View.read_apply]
  show V m c main_arg1 _ = m (c.tc.loc main_arg1) _
  unfold V
  congr 1
  funext a
  apply Fin.ext
  match a with
  | ⟨0, _⟩ => show win0_1.index t 0 * 1024 + 1 * q.val = (j 0).val; rw [hi.1, h0]; omega
  | ⟨1, _⟩ => show win0_1.index t 1 * 512 + 1 * k.val = (j 1).val; rw [hi.2, h1]; omega

/-- Entry (q, k) of the rho tile of point t is row 1024 ((t / 8) % 4) + q, column 512 (t % 8) + k of its array. -/
theorem rhoB_apply (c : Dev nD) (t : Fin cfg0.N) (q : Fin 1024) (k : Fin 512) (j : S4096x4096.Idx)
    (h0 : (j 0).val = 1024 * (t.val / 8 % 4) + q.val) (h1 : (j 1).val = 512 * (t.val % 8) + k.val) :
    rhoB m c t (ix2 q k) = rhoA m c j := by
  have hi := (index_facts t).2.2.1
  unfold rhoB iblk
  rw [View.read_apply]
  show V m c main_arg2 _ = m (c.tc.loc main_arg2) _
  unfold V
  congr 1
  funext a
  apply Fin.ext
  match a with
  | ⟨0, _⟩ => show win0_2.index t 0 * 1024 + 1 * q.val = (j 0).val; rw [hi.1, h0]; omega
  | ⟨1, _⟩ => show win0_2.index t 1 * 512 + 1 * k.val = (j 1).val; rw [hi.2, h1]; omega

/-- Entry (q, k) of the eps tile of point t is row 1024 ((t / 8) % 4) + q, column 512 (t % 8) + k of its array. -/
theorem epsB_apply (c : Dev nD) (t : Fin cfg0.N) (q : Fin 1024) (k : Fin 512) (j : S4096x4096.Idx)
    (h0 : (j 0).val = 1024 * (t.val / 8 % 4) + q.val) (h1 : (j 1).val = 512 * (t.val % 8) + k.val) :
    epsB m c t (ix2 q k) = epsA m c j := by
  have hi := (index_facts t).2.2.2.1
  unfold epsB iblk
  rw [View.read_apply]
  show V m c main_arg5 _ = m (c.tc.loc main_arg5) _
  unfold V
  congr 1
  funext a
  apply Fin.ext
  match a with
  | ⟨0, _⟩ => show win0_3.index t 0 * 1024 + 1 * q.val = (j 0).val; rw [hi.1, h0]; omega
  | ⟨1, _⟩ => show win0_3.index t 1 * 512 + 1 * k.val = (j 1).val; rw [hi.2, h1]; omega

/-- Entry q of the bmu tile of point t is entry 1024 ((t / 8) % 4) + q of its vector. -/
theorem bmuB_apply (c : Dev nD) (t : Fin cfg0.N) (q : Fin 1024) (j : S4096.Idx)
    (h0 : (j 0).val = 1024 * (t.val / 8 % 4) + q.val) :
    bmuB m c t (ix1 q) = bmuA m c j := by
  have hi := (index_facts t).2.2.2.2.1
  unfold bmuB iblk
  rw [View.read_apply]
  show V m c main_arg3 _ = m (c.tc.loc main_arg3) _
  unfold V
  congr 1
  funext a
  apply Fin.ext
  match a with
  | ⟨0, _⟩ => show win0_4.index t 0 * 1024 + 1 * q.val = (j 0).val; rw [hi, h0]; omega

/-- Entry q of the brho tile of point t is entry 1024 ((t / 8) % 4) + q of its vector. -/
theorem brhoB_apply (c : Dev nD) (t : Fin cfg0.N) (q : Fin 1024) (j : S4096.Idx)
    (h0 : (j 0).val = 1024 * (t.val / 8 % 4) + q.val) :
    brhoB m c t (ix1 q) = brhoA m c j := by
  have hi := (index_facts t).2.2.2.2.2.1
  unfold brhoB iblk
  rw [View.read_apply]
  show V m c main_arg4 _ = m (c.tc.loc main_arg4) _
  unfold V
  congr 1
  funext a
  apply Fin.ext
  match a with
  | ⟨0, _⟩ => show win0_5.index t 0 * 1024 + 1 * q.val = (j 0).val; rw [hi, h0]; omega

/-- Entry q of the beps tile of point t is entry 1024 ((t / 8) % 4) + q of its vector. -/
theorem bepsB_apply (c : Dev nD) (t : Fin cfg0.N) (q : Fin 1024) (j : S4096.Idx)
    (h0 : (j 0).val = 1024 * (t.val / 8 % 4) + q.val) :
    bepsB m c t (ix1 q) = bepsA m c j := by
  have hi := (index_facts t).2.2.2.2.2.2.1
  unfold bepsB iblk
  rw [View.read_apply]
  show V m c main_arg6 _ = m (c.tc.loc main_arg6) _
  unfold V
  congr 1
  funext a
  apply Fin.ext
  match a with
  | ⟨0, _⟩ => show win0_6.index t 0 * 1024 + 1 * q.val = (j 0).val; rw [hi, h0]; omega

end Cert.KernelIdeal.Blocks

end
-- ==== Proof.Fold.lean ====
/-
  The accumulator over a run of eight points, and the array the output tiles fill.

  Points 8u, 8u + 1, …, 8u + 7 share a row tile and a column tile and walk the eight stretches of k. The first resets
  the accumulator and adds its stretch's product; each later one adds its own; so after point 8u + j the accumulator
  is 0 plus the sum of the products of stretches 0 … j. The last point of the run adds the bias row and writes the
  tile back. Read at an entry, the eight stretch sums are the eight stretches of the layer's sum over k, and the tiles
  written back cover the output array.
-/
import proofs.«157632_j36223754174952_1_alg».proof.Proof.Gen.KernelIdeal.Value
import proofs.«157632_j36223754174952_1_alg».proof.Proof.Pieces
import proofs.«157632_j36223754174952_1_alg».proof.Proof.Payloads
import proofs.«157632_j36223754174952_1_alg».proof.Proof.Blocks

noncomputable section

open scoped BigOperators
open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.KernelIdeal.Value Cert.KernelIdeal.Blocks Cert.KernelIdeal.Payloads
open Cert.SampledLinear

variable (m : (ℓ : Loc nD τ sig) → Buf (Elt Ideal) ℓ) (ρ : Dev nD → PrngReg)

/-! ## What one point leaves in the accumulator -/

/-- At the first point of a run: the step's product added onto the zero tile. -/
theorem scAt_first (c : Dev nD) (n : ℕ) (hb : n < cfg0.N) (acc : Vec Ideal S1024x1024 .f32) (h0 : n % 8 = 0) :
    scAt0_0 m c n hb acc = k0_pay2 (muB m c (⟨n, hb⟩ : Fin cfg0.N)) (rhoB m c (⟨n, hb⟩ : Fin cfg0.N)) (epsB m c (⟨n, hb⟩ : Fin cfg0.N)) (xB m c (⟨n, hb⟩ : Fin cfg0.N)) (k0_pay1 (F := Ideal)) := by
  have h1 : ¬n % 8 = 7 := by omega
  unfold scAt0_0
  rw [dif_pos h0, dif_neg h1]
  exact Pieces.acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) _ _ (xB m c (⟨n, hb⟩ : Fin cfg0.N)) (muB m c (⟨n, hb⟩ : Fin cfg0.N)) (rhoB m c (⟨n, hb⟩ : Fin cfg0.N)) (epsB m c (⟨n, hb⟩ : Fin cfg0.N)) (bmuB m c (⟨n, hb⟩ : Fin cfg0.N)) (brhoB m c (⟨n, hb⟩ : Fin cfg0.N)) (bepsB m c (⟨n, hb⟩ : Fin cfg0.N))

/-- At every later point: the step's product added onto what the point before left. -/
theorem scAt_later (c : Dev nD) (n : ℕ) (hb : n < cfg0.N) (acc : Vec Ideal S1024x1024 .f32) (h0 : ¬n % 8 = 0) :
    scAt0_0 m c n hb acc = k0_pay2 (muB m c (⟨n, hb⟩ : Fin cfg0.N)) (rhoB m c (⟨n, hb⟩ : Fin cfg0.N)) (epsB m c (⟨n, hb⟩ : Fin cfg0.N)) (xB m c (⟨n, hb⟩ : Fin cfg0.N)) acc := by
  unfold scAt0_0
  by_cases h1 : n % 8 = 7
  · rw [dif_neg h0, dif_pos h1]
    exact Pieces.acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) _ _ (xB m c (⟨n, hb⟩ : Fin cfg0.N)) (muB m c (⟨n, hb⟩ : Fin cfg0.N)) (rhoB m c (⟨n, hb⟩ : Fin cfg0.N)) (epsB m c (⟨n, hb⟩ : Fin cfg0.N)) (bmuB m c (⟨n, hb⟩ : Fin cfg0.N)) (brhoB m c (⟨n, hb⟩ : Fin cfg0.N)) (bepsB m c (⟨n, hb⟩ : Fin cfg0.N)) acc
  · rw [dif_neg h0, dif_neg h1]
    exact Pieces.acc_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) _ _ (xB m c (⟨n, hb⟩ : Fin cfg0.N)) (muB m c (⟨n, hb⟩ : Fin cfg0.N)) (rhoB m c (⟨n, hb⟩ : Fin cfg0.N)) (epsB m c (⟨n, hb⟩ : Fin cfg0.N)) (bmuB m c (⟨n, hb⟩ : Fin cfg0.N)) (brhoB m c (⟨n, hb⟩ : Fin cfg0.N)) (bepsB m c (⟨n, hb⟩ : Fin cfg0.N)) acc

/-- The product of point n's stretch, at one entry of the tile (zero past the grid, where it is never read). -/
def addend (c : Dev nD) (n : ℕ) (y : S1024x1024.Idx) : EReal :=
  if h : n < cfg0.N then
    ∑ k : Fin 512, xB m c ⟨n, h⟩ (ix2 ⟨(y 0).val, idx2_lt0 y⟩ k)
      * wtile (muB m c ⟨n, h⟩) (rhoB m c ⟨n, h⟩) (epsB m c ⟨n, h⟩) ⟨(y 1).val, idx2_lt1 y⟩ k
  else 0

theorem first_apply (c : Dev nD) (b : ℕ) (h : b < cfg0.N) (hb : b % 8 = 0) (acc : Vec Ideal S1024x1024 .f32) (y : S1024x1024.Idx) :
    scAt0_0 m c b h acc y = 0 + addend m c b y := by
  rw [scAt_first m c b h acc hb]
  obtain ⟨p, q, rfl⟩ : ∃ (p q : Fin 1024), y = ix2 p q := ⟨y 0, y 1, eq_ix2 y⟩
  rw [step_apply, reset_apply]
  unfold addend
  rw [dif_pos h]

theorem later_apply (c : Dev nD) (n : ℕ) (h : n < cfg0.N) (hn : ¬n % 8 = 0) (acc : Vec Ideal S1024x1024 .f32) (y : S1024x1024.Idx) :
    scAt0_0 m c n h acc y = acc y + addend m c n y := by
  rw [scAt_later m c n h acc hn]
  obtain ⟨p, q, rfl⟩ : ∃ (p q : Fin 1024), y = ix2 p q := ⟨y 0, y 1, eq_ix2 y⟩
  rw [step_apply]
  unfold addend
  rw [dif_pos h]

/-- THE ACCUMULATOR after point t: zero plus the products of the stretches its run has walked so far. -/
theorem scratch_after (c : Dev nD) (t : Fin cfg0.N) (y : S1024x1024.Idx) :
    (outsAt0 m c t.val t.isLt).2 y = 0 + ∑ s ∈ Finset.range (t.val % 8 + 1), addend m c (8 * (t.val / 8) + s) y := by
  rw [soutsAt0_0_eq m c t]
  exact Pipeline.accAt_add_apply (fun n h => scAt0_0 m c n h (VS0_0.read (Elt Ideal) VS0_0.junk)) (scAt0_0 m c) (fun _ => 0)
    (addend m c) (8 * (t.val / 8)) 7
    (fun h i => first_apply m c _ h (Nat.mul_mod_right 8 _) _ i)
    (fun n h acc i h1 h2 => later_apply m c n h (by omega) acc i)
    (t.val % 8) (by omega) _ y

/-! ## The output tile at the last point of a run -/

/-- It is the accumulator, as that point leaves it, plus the bias row. -/
theorem out_tile (c : Dev nD) (t : Fin cfg0.N) (h7 : t.val % 8 = 7) :
    (outsAt0 m c t.val t.isLt).1 = k0_pay3 (bmuB m c t) (brhoB m c t) (bepsB m c t) (outsAt0 m c t.val t.isLt).2 := by
  have h0 : ¬t.val % 8 = 0 := by omega
  rw [outsAt0_C m c t h0 h7]
  dsimp only
  exact (Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ _ (xB m c t) (muB m c t) (rhoB m c t) (epsB m c t) (bmuB m c t) (brhoB m c t) (bepsB m c t) _).trans
    (congrArg (k0_pay3 (bmuB m c t) (brhoB m c t) (bepsB m c t)) (Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ _ (xB m c t) (muB m c t) (rhoB m c t) (epsB m c t) (bmuB m c t) (brhoB m c t) (bepsB m c t) _).symm)

/-! ## The result array -/

/-- The layer of the seven argument arrays. -/
abbrev result (c : Dev nD) : Buf (Elt Ideal) ((c : Thread nD τ).loc main_v0) :=
  layer (xA m c) (muA m c) (rhoA m c) (epsA m c) (bmuA m c) (brhoA m c) (bepsA m c)

/-- One stretch's product at one entry is that stretch of the layer's sum over k. -/
theorem addend_eq (c : Dev nD) (u s : ℕ) (hs : s < 8) (hu : 8 * u + s < cfg0.N) (p q : Fin 1024) (r : Fin 8192) (o : Fin 4096)
    (hr : r.val = 1024 * (u / 4) + p.val) (ho : o.val = 1024 * (u % 4) + q.val) :
    addend m c (8 * u + s) (ix2 p q) = ∑ k : Fin 512, term (xA m c) (muA m c) (rhoA m c) (epsA m c) r o (512 * s + k.val) := by
  unfold addend
  rw [dif_pos hu]
  refine Finset.sum_congr rfl fun k _ => ?_
  have hk : 512 * s + k.val < 4096 := by have := k.isLt; omega
  unfold term wtile weightAt
  rw [dif_pos hk]
  rw [xB_apply m c ⟨8 * u + s, hu⟩ p k (ix2 r ⟨512 * s + k.val, hk⟩) (by show r.val = 1024 * ((8 * u + s) / 32) + p.val; omega)
      (by show 512 * s + k.val = 512 * ((8 * u + s) % 8) + k.val; omega),
    muB_apply m c ⟨8 * u + s, hu⟩ q k (ix2 o ⟨512 * s + k.val, hk⟩) (by show o.val = 1024 * ((8 * u + s) / 8 % 4) + q.val; omega)
      (by show 512 * s + k.val = 512 * ((8 * u + s) % 8) + k.val; omega),
    rhoB_apply m c ⟨8 * u + s, hu⟩ q k (ix2 o ⟨512 * s + k.val, hk⟩) (by show o.val = 1024 * ((8 * u + s) / 8 % 4) + q.val; omega)
      (by show 512 * s + k.val = 512 * ((8 * u + s) % 8) + k.val; omega),
    epsB_apply m c ⟨8 * u + s, hu⟩ q k (ix2 o ⟨512 * s + k.val, hk⟩) (by show o.val = 1024 * ((8 * u + s) / 8 % 4) + q.val; omega)
      (by show 512 * s + k.val = 512 * ((8 * u + s) % 8) + k.val; omega)]

/-- THE TILE a run's last point writes back, at one entry: the layer at the entry's place in the array. -/
theorem tile_apply (c : Dev nD) (t : Fin cfg0.N) (h7 : t.val % 8 = 7) (y : S1024x1024.Idx) (i : S8192x4096.Idx)
    (h0 : (i 0).val = 1024 * (t.val / 32) + (y 0).val) (h1 : (i 1).val = 1024 * (t.val / 8 % 4) + (y 1).val) :
    k0_pay3 (bmuB m c t) (brhoB m c t) (bepsB m c t) (outsAt0 m c t.val t.isLt).2 y = result m c i := by
  obtain ⟨p, q, rfl⟩ : ∃ (p q : Fin 1024), y = ix2 p q := ⟨y 0, y 1, eq_ix2 y⟩
  have hN : t.val < 256 := lt_of_lt_of_eq t.isLt N_0
  have h0' : (i 0).val = 1024 * (t.val / 32) + p.val := h0
  have h1' : (i 1).val = 1024 * (t.val / 8 % 4) + q.val := h1
  rw [last_apply, scratch_after m c t (ix2 p q), h7, zero_add]
  show _ = layer (xA m c) (muA m c) (rhoA m c) (epsA m c) (bmuA m c) (brhoA m c) (bepsA m c) i
  unfold layer
  refine congrArg₂ (· + ·) ?_ ?_
  · rw [sum_terms]
    refine Finset.sum_congr rfl fun s hs => ?_
    have hs8 : s < 8 := Finset.mem_range.mp hs
    exact addend_eq m c (t.val / 8) s hs8 (lt_of_lt_of_eq (by omega) N_0.symm) p q _ _
      (by show (i 0).val = 1024 * (t.val / 8 / 4) + p.val; omega) (by show (i 1).val = 1024 * (t.val / 8 % 4) + q.val; exact h1')
  · unfold btile biasAt
    rw [bmuB_apply m c t q (ix1 ⟨(i 1).val, idx2_lt1 i⟩) h1', brhoB_apply m c t q (ix1 ⟨(i 1).val, idx2_lt1 i⟩) h1',
      bepsB_apply m c t q (ix1 ⟨(i 1).val, idx2_lt1 i⟩) h1']

end Cert.KernelIdeal.Fold

end
-- ==== Proof.Result.lean ====
/-
  The kernel's result array is the layer of its arguments.

  The output tile of row tile a and column tile b is written back once, at the last point of the run that accumulates
  it; that point writes the layer's values at rows 1024 a + p and columns 1024 b + q. The 8 x 4 tiles cover the
  8192 x 4096 output, so after the run the whole array holds the layer.
-/
import proofs.«157632_j36223754174952_1_alg».proof.Proof.Fold

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Value Cert.KernelIdeal.Blocks Cert.KernelIdeal.Fold

variable (m : (ℓ : Loc nD τ sig) → Buf (Elt Ideal) ℓ) (ρ : Dev nD → PrngReg)

/-- What a point that writes back writes: its tile of the layer. -/
theorem flushed_eq (c : Dev nD) (t : Fin cfg0.N) (hf : (cfg0.win 7).flush t = true) :
    (dats m 0 c).flushed 7 t = ((cfg0.win 7).blk t).view.read (Elt Ideal) (result m c) := by
  have h7 : t.val % 8 = 7 := (flush0_7 t).mp hf
  have hi := (index_facts t).2.2.2.2.2.2.2
  rw [flushed7, out_tile m c t h7]
  funext j
  exact tile_apply m c t h7 j (((cfg0.win 7).blk t).view.emb j)
    (by show win0_7.index t 0 * 1024 + 1 * (j 0).val = 1024 * (t.val / 32) + (j 0).val; rw [hi.1]; omega)
    (by show win0_7.index t 1 * 1024 + 1 * (j 1).val = 1024 * (t.val / 8 % 4) + (j 1).val; rw [hi.2]; omega)

/-- An entry of the array lies in point t's tile iff each coordinate lies in the tile's range on its axis. -/
theorem mem_tile (t : Fin cfg0.N) (i : S8192x4096.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v0).slice (win0_7.rect t)).set ↔ _
  rw [View.set_slice_whole, Rect.mem_set_unit]
  exact Iff.rfl

/-- Every entry (r, o) is in the tile written back at the last point of the run of row tile r / 1024 and column
    tile o / 1024. -/
theorem cover (i : S8192x4096.Idx) : ∃ t : Fin cfg0.N, (cfg0.win 7).flush t = true ∧ i ∈ ((cfg0.win 7).blk t).view.set := by
  have hi0 : (i 0).val < 8192 := idx2_lt0 i
  have hi1 : (i 1).val < 4096 := idx2_lt1 i
  have hlt : ((i 0).val / 1024 * 4 + (i 1).val / 1024) * 8 + 7 < cfg0.N := lt_of_lt_of_eq (by omega) N_0.symm
  have hx := (index_facts ⟨((i 0).val / 1024 * 4 + (i 1).val / 1024) * 8 + 7, hlt⟩).2.2.2.2.2.2.2
  refine ⟨⟨((i 0).val / 1024 * 4 + (i 1).val / 1024) * 8 + 7, hlt⟩, (flush0_7 _).mpr (by show (((i 0).val / 1024 * 4 + (i 1).val / 1024) * 8 + 7) % 8 = 7; omega), ?_⟩
  rw [mem_tile]
  intro a
  match a with
  | ⟨0, _⟩ =>
    show win0_7.index ⟨((i 0).val / 1024 * 4 + (i 1).val / 1024) * 8 + 7, hlt⟩ 0 * 1024 ≤ (i 0).val
      ∧ (i 0).val < win0_7.index ⟨((i 0).val / 1024 * 4 + (i 1).val / 1024) * 8 + 7, hlt⟩ 0 * 1024 + 1024
    rw [hx.1]
    show (((i 0).val / 1024 * 4 + (i 1).val / 1024) * 8 + 7) / 32 * 1024 ≤ (i 0).val
      ∧ (i 0).val < (((i 0).val / 1024 * 4 + (i 1).val / 1024) * 8 + 7) / 32 * 1024 + 1024
    omega
  | ⟨1, _⟩ =>
    show win0_7.index ⟨((i 0).val / 1024 * 4 + (i 1).val / 1024) * 8 + 7, hlt⟩ 1 * 1024 ≤ (i 1).val
      ∧ (i 1).val < win0_7.index ⟨((i 0).val / 1024 * 4 + (i 1).val / 1024) * 8 + 7, hlt⟩ 1 * 1024 + 1024
    rw [hx.2]
    show (((i 0).val / 1024 * 4 + (i 1).val / 1024) * 8 + 7) / 8 % 4 * 1024 ≤ (i 1).val
      ∧ (i 1).val < (((i 0).val / 1024 * 4 + (i 1).val / 1024) * 8 + 7) / 8 % 4 * 1024 + 1024
    omega

/-- The result array after the run. -/
theorem final (c : Dev nD) : (dats m 0 c).arrAt 7 cfg0.N = result m c :=
  (dats m 0 c).arrAt_eq_of_cover 7 (result m c) (flushed_eq m c) cover

/-- The run: the result array at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Result

end
-- ==== Proof.RefValue.lean ====
/-
  The reference computes the layer.

  Its last value is the product of x with the sampled weight, contracted over k, plus the sampled bias broadcast down the
  rows; the sampled weight and bias are spelt out one elementwise operation at a time, and softplus is spelt with a guard
  "t - 0 differs from itself" that never fires on extended reals.
-/
import proofs.«157632_j36223754174952_1_alg».proof.Proof.Gen.ReferenceIdeal.Read
import proofs.«157632_j36223754174952_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.SampledLinear

/-- The reference's sampled weight, at one entry. -/
theorem weight_apply (x1 x2 x5 : (⟨S4096x4096, .f32⟩ : BufTy).Contents (Elt Ideal)) (j : S4096x4096.Idx) :
    val_main_v2 (F := Ideal) x1 x2 x5 j = weightAt x1 x2 x5 j := by
  show x1 j + Scalar.select (Ideal.cmp .une (x2 j - Ideal.ofBits .f32 0x00000000#32) (x2 j - Ideal.ofBits .f32 0x00000000#32))
      (x2 j + Ideal.ofBits .f32 0x00000000#32)
      (max (x2 j) (Ideal.ofBits .f32 0x00000000#32) + Ideal.log1p (Ideal.exp (-(max (x2 j - Ideal.ofBits .f32 0x00000000#32) (-(x2 j - Ideal.ofBits .f32 0x00000000#32)))))) * x5 j = _
  rw [Ideal.ofBits_zero_f32, softplus_of_neg]
  rfl

/-- The reference's sampled bias, at one entry. -/
theorem bias_apply (x3 x4 x6 : (⟨S4096, .f32⟩ : BufTy).Contents (Elt Ideal)) (j : S4096.Idx) :
    val_main_v5 (F := Ideal) x3 x4 x6 j = biasAt x3 x4 x6 j := by
  show x3 j + Scalar.select (Ideal.cmp .une (x4 j - Ideal.ofBits .f32 0x00000000#32) (x4 j - Ideal.ofBits .f32 0x00000000#32))
      (x4 j + Ideal.ofBits .f32 0x00000000#32)
      (max (x4 j) (Ideal.ofBits .f32 0x00000000#32) + Ideal.log1p (Ideal.exp (-(max (x4 j - Ideal.ofBits .f32 0x00000000#32) (-(x4 j - Ideal.ofBits .f32 0x00000000#32)))))) * x6 j = _
  rw [Ideal.ofBits_zero_f32, softplus_of_neg]
  rfl

/-- The reference's result is the layer of its seven arguments. -/
theorem result_eq (x0 : (⟨S8192x4096, .f32⟩ : BufTy).Contents (Elt Ideal)) (x1 x2 : (⟨S4096x4096, .f32⟩ : BufTy).Contents (Elt Ideal))
    (x3 x4 : (⟨S4096, .f32⟩ : BufTy).Contents (Elt Ideal)) (x5 : (⟨S4096x4096, .f32⟩ : BufTy).Contents (Elt Ideal))
    (x6 : (⟨S4096, .f32⟩ : BufTy).Contents (Elt Ideal)) :
    val_main_v9 (F := Ideal) x0 x1 x2 x3 x4 x5 x6 = layer x0 x1 x2 x5 x3 x4 x6 := by
  funext i
  rw [val_main_v9_apply, val_main_v6_apply, val_main_v8_apply, val_main_v7_apply]
  refine congrArg₂ (· + ·) (Finset.sum_congr rfl fun k _ => ?_) ?_
  · have el : lidx_main_v6 i k = ix2 ⟨(i 0).val, idx2_lt0 i⟩ k :=
      funext fun a => Fin.ext (by match a with | ⟨0, _⟩ => rfl | ⟨1, _⟩ => rfl)
    have er : ridx_main_v6 i k = ix2 ⟨(i 1).val, idx2_lt1 i⟩ k :=
      funext fun a => Fin.ext (by match a with | ⟨0, _⟩ => rfl | ⟨1, _⟩ => rfl)
    rw [weight_apply, el, er]
  · have eb : idx_main_v7 (idx_main_v8 i) = ix1 ⟨(i 1).val, idx2_lt1 i⟩ :=
      funext fun a => Fin.ext (by match a with | ⟨0, _⟩ => rfl)
    rw [bias_apply, eb]

end Cert.ReferenceIdeal.RefValue

end
-- ==== Proof.lean ====
/-
  The kernel and the reference compute the same Bayesian linear layer on the extended reals.

  Both sample the weight  w = mu + softplus(rho) * eps  and the bias  b = bmu + softplus(brho) * beps  and return
  x · wᵀ + b. The reference forms the product in one contraction over k; the kernel tiles the output 8 x 4, cuts k into
  8 stretches of 512, accumulates the stretch products of a tile in a scratch accumulator reset at the first stretch,
  and adds the bias at the last. Rounding to bf16 is the identity on extended reals, and regrouping a sum needs only
  commutativity and associativity of addition, which hold also at the infinities: the precondition is never opened.
  The frames of the two kernel programs and the run of the reference are the generated ones; nothing was rewritten
  when the kernel was idealized.
-/
import proofs.«157632_j36223754174952_1_alg».proof.Defs
import proofs.«157632_j36223754174952_1_alg».proof.Proof.Gen.Kernel
import proofs.«157632_j36223754174952_1_alg».proof.Proof.Gen.Kernel.Skeleton
import proofs.«157632_j36223754174952_1_alg».proof.Proof.Gen.Kernel.Launch
import proofs.«157632_j36223754174952_1_alg».proof.Proof.Gen.Kernel.Points
import proofs.«157632_j36223754174952_1_alg».proof.Proof.Gen.Kernel.Frame
import proofs.«157632_j36223754174952_1_alg».proof.Proof.Gen.KernelIdeal
import proofs.«157632_j36223754174952_1_alg».proof.Proof.Gen.KernelIdeal.Skeleton
import proofs.«157632_j36223754174952_1_alg».proof.Proof.Gen.KernelIdeal.Launch
import proofs.«157632_j36223754174952_1_alg».proof.Proof.Gen.KernelIdeal.Points
import proofs.«157632_j36223754174952_1_alg».proof.Proof.Gen.KernelIdeal.Frame
import proofs.«157632_j36223754174952_1_alg».proof.Proof.Gen.ReferenceIdeal
import proofs.«157632_j36223754174952_1_alg».proof.Proof.Gen.KernelIdeal.Value
import proofs.«157632_j36223754174952_1_alg».proof.Proof.Gen.ReferenceIdeal.Run
import proofs.«157632_j36223754174952_1_alg».proof.Proof.Gen.ReferenceIdeal.Read
import proofs.«157632_j36223754174952_1_alg».proof.Proof.Gen.Pre_finite_inputs
import proofs.«157632_j36223754174952_1_alg».proof.Proof.Result
import proofs.«157632_j36223754174952_1_alg».proof.Proof.RefValue
import Idealize.ShloMosaic.Adequacy
import Idealize.ShloMosaic.Init

noncomputable section

namespace Cert.Proof

open Idealize.ShloMosaic Idealize.SL.Sem

/-- The reference's frame: its run with the result dropped. -/
theorem frame_reference [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Run from arguments that agree, both programs end with the layer of those arguments in their result array. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Fold.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v9_eq _ _ _ _ _ _ _).trans ?_
  rw [Cert.ReferenceIdeal.RefValue.result_eq]
  obtain ⟨a0, a1, a2, a3, a4, a5, a6⟩ := hagree c
  rw [a0, a1, a2, a3, a4, a5, a6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
